-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x64 : Shape := ⟨2, ![800000, 64]⟩
abbrev S320x128 : Shape := ⟨2, ![320, 128]⟩
abbrev S128 : Shape := ⟨1, ![128]⟩
abbrev S128x128 : Shape := ⟨2, ![128, 128]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S320x128 : S_.BroadcastsInDim S320x128 (![] : Fin 0 → Fin S320x128.rank)
  reducesTo_S320x128_S_d0_1 : S320x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S64x1 .f32) (main_arg8 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x1 .f32 := Host.absf main_arg7
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S800000x64 .f32) (main_arg3 : FVec F S320x128 .f32) (main_arg4 : FVec F S128 .f32) (main_arg5 : FVec F S128x128 .f32) (main_arg6 : FVec F S128 .f32) (main_arg7 : FVec F S64x1 .f32) (main_arg8 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S320x128 .f32 := Host.absf main_arg3
  let main_cst_2 : FVec F S_ .f32 := constant S_ .f32 0x7F800000#32
  let main_v10 : FVec F S320x128 .f32 := broadcastInDim S320x128 ![] bcast_S_S320x128 main_cst_2
  let main_v11 : IVec S320x128 1 := cmpf .olt main_v9 main_v10
  let main_c_3 : IVec S_ 1 := constantI S_ 1 1#1
  let main_v12 : IVec S_ 1 := (fun x v => Host.reduce IntOp.andi x v reducesTo_S320x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S800000x64 : Shape := ⟨2, ![800000, 64]⟩
abbrev S320x128 : Shape := ⟨2, ![320, 128]⟩
abbrev S128 : Shape := ⟨1, ![128]⟩
abbrev S128x128 : Shape := ⟨2, ![128, 128]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S64x128 : Shape := ⟨2, ![64, 128]⟩
abbrev S1x128 : Shape := ⟨2, ![1, 128]⟩
abbrev S1x1 : Shape := ⟨2, ![1, 1]⟩
abbrev S3200x128 : Shape := ⟨2, ![3200, 128]⟩
abbrev S3200x64 : Shape := ⟨2, ![3200, 64]⟩
abbrev S3200x1 : Shape := ⟨2, ![3200, 1]⟩

abbrev nBuf : Space → Nat
  | .hbm => 50
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S320x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S64x1, .f32⟩
  | .hbm, ⟨8, _⟩ => ⟨S1, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000x128, .bf16⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .bf16⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .bf16⟩
  | .hbm, ⟨32, _⟩ => ⟨S800000x64, .bf16⟩
  | .hbm, ⟨33, _⟩ => ⟨S128x128, .f32⟩
  | .hbm, ⟨34, _⟩ => ⟨S128x128, .bf16⟩
  | .hbm, ⟨35, _⟩ => ⟨S128x128, .f32⟩
  | .hbm, ⟨36, _⟩ => ⟨S128x128, .bf16⟩
  | .hbm, ⟨37, _⟩ => ⟨S64x128, .f32⟩
  | .hbm, ⟨38, _⟩ => ⟨S64x128, .bf16⟩
  | .hbm, ⟨39, _⟩ => ⟨S128x128, .bf16⟩
  | .hbm, ⟨40, _⟩ => ⟨S64x1, .bf16⟩
  | .hbm, ⟨41, _⟩ => ⟨S1x128, .f32⟩
  | .hbm, ⟨42, _⟩ => ⟨S1x128, .f32⟩
  | .hbm, ⟨43, _⟩ => ⟨S1x1, .f32⟩
  | .hbm, ⟨44, _⟩ => ⟨S800000x128, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .hbm, ⟨49, _⟩ => ⟨S50000x128, .f32⟩
  | .local _ .vmem, ⟨0, _⟩ => ⟨S3200x128, .bf16⟩
  | .local _ .vmem, ⟨1, _⟩ => ⟨S3200x128, .bf16⟩
  | .local _ .vmem, ⟨2, _⟩ => ⟨S3200x128, .bf16⟩
  | .local _ .vmem, ⟨3, _⟩ => ⟨S3200x128, .bf16⟩
  | .local _ .vmem, ⟨4, _⟩ => ⟨S3200x64, .bf16⟩
  | .local _ .vmem, ⟨5, _⟩ => ⟨S3200x64, .bf16⟩
  | .local _ .vmem, ⟨6, _⟩ => ⟨S128x128, .bf16⟩
  | .local _ .vmem, ⟨7, _⟩ => ⟨S128x128, .bf16⟩
  | .local _ .vmem, ⟨8, _⟩ => ⟨S64x128, .bf16⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S64x1, .bf16⟩
  | .local _ .vmem, ⟨13, _⟩ => ⟨S1x1, .f32⟩
  | .local _ .vmem, ⟨14, _⟩ => ⟨S3200x128, .f32⟩
  | .local _ .vmem, ⟨15, _⟩ => ⟨S3200x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S3200x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S320x128_S128x128_0_0 : S320x128.Slices ![0, 0] S128x128
  slices_S320x128_S128x128_128_0 : S320x128.Slices ![128, 0] S128x128
  slices_S320x128_S64x128_256_0 : S320x128.Slices ![256, 0] S64x128
  shapeCasts_S128_S1x128 : S128.ShapeCasts S1x128
  shapeCasts_S1_S1x1 : S1.ShapeCasts S1x1
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S3200x1 : S1x1.Broadcasts S3200x1
  broadcasts_S3200x1_S3200x128 : S3200x1.Broadcasts S3200x128
  bcast_S_S50000x128 : S_.BroadcastsInDim S50000x128 (![] : Fin 0 → Fin S50000x128.rank)
  gather_S50000x128_S800000x1_S800000x128_1_0_n_n_0_1_1128_wf : GatherDims.WF S50000x128 S800000x1 S800000x128 [1] [0] [] [0] [] 1 ![1, 128]
  dot_S3200x128_S128x128_S3200x128_1_0_0_1_n_n_wf : DotDims.WF S3200x128 S128x128 S3200x128 [1] [0] [0] [1] [] []
  dot_S3200x64_S64x128_S3200x128_1_0_0_1_n_n_wf : DotDims.WF S3200x64 S64x128 S3200x128 [1] [0] [0] [1] [] []
  dot_S3200x64_S64x1_S3200x1_1_0_0_1_n_n_wf : DotDims.WF S3200x64 S64x1 S3200x1 [1] [0] [0] [1] [] []
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S800000x128.size a
  hwx0_0 : ∀ i : grid0.Coords, EltTy.bits .bf16 = 32 ∨ (Rect.block (s := S800000x128) S3200x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S800000x128.size a
  hwx0_1 : ∀ i : grid0.Coords, EltTy.bits .bf16 = 32 ∨ (Rect.block (s := S800000x128) S3200x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x64.size a ≤ S800000x64.size a
  hwx0_2 : ∀ i : grid0.Coords, EltTy.bits .bf16 = 32 ∨ (Rect.block (s := S800000x64) S3200x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .bf16 = 32 ∨ (Rect.block (s := S64x128) S64x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x1.size a ≤ S64x1.size a
  hwx0_9 : ∀ i : grid0.Coords, EltTy.bits .bf16 = 32 ∨ (Rect.block (s := S64x1) S64x1.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S3200x128.size a ≤ S800000x128.size a
  hwx0_11 : ∀ i : grid0.Coords, EltTy.bits .f32 = 32 ∨ (Rect.block (s := S800000x128) S3200x128.size (cc0_transform_11 i) (hinb0_11 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def dot_S3200x64_S64x128_S3200x128_1_0_0_1_n_n : DotDims S3200x64 S64x128 S3200x128 where
  lhsContracting := [1]
  rhsContracting := [0]
  lhsNonContracting := [0]
  rhsNonContracting := [1]
  lhsBatch := []
  rhsBatch := []
  wf := dot_S3200x64_S64x128_S3200x128_1_0_0_1_n_n_wf
def dot_S3200x64_S64x1_S3200x1_1_0_0_1_n_n : DotDims S3200x64 S64x1 S3200x1 where
  lhsContracting := [1]
  rhsContracting := [0]
  lhsNonContracting := [0]
  rhsNonContracting := [1]
  lhsBatch := []
  rhsBatch := []
  wf := dot_S3200x64_S64x1_S3200x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_v11) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S3200x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S64x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v30) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v31) S3200x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x64 : Shape := ⟨2, ![800000, 64]⟩
abbrev S320x128 : Shape := ⟨2, ![320, 128]⟩
abbrev S128 : Shape := ⟨1, ![128]⟩
abbrev S128x128 : Shape := ⟨2, ![128, 128]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S800000x1 : Shape := ⟨2, ![800000, 1]⟩
abbrev S1x1 : Shape := ⟨2, ![1, 1]⟩
abbrev S_ : Shape := ⟨0, ![]⟩
abbrev S800000x128 : Shape := ⟨2, ![800000, 128]⟩
abbrev S800000x320 : Shape := ⟨2, ![800000, 320]⟩
abbrev S1x128 : Shape := ⟨2, ![1, 128]⟩

abbrev nBuf : Space → Nat
  | .hbm => 62
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S320x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S64x1, .f32⟩
  | .hbm, ⟨8, _⟩ => ⟨S1, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S800000x1, .f32⟩
  | .hbm, ⟨14, _⟩ => ⟨S1x1, .f32⟩
  | .hbm, ⟨15, _⟩ => ⟨S800000x1, .f32⟩
  | .hbm, ⟨16, _⟩ => ⟨S800000x1, .f32⟩
  | .hbm, ⟨17, _⟩ => ⟨S800000x1, .f32⟩
  | .hbm, ⟨18, _⟩ => ⟨S800000x1, .f32⟩
  | .hbm, ⟨19, _⟩ => ⟨S_, .f32⟩
  | .hbm, ⟨20, _⟩ => ⟨S800000x1, .f32⟩
  | .hbm, ⟨21, _⟩ => ⟨S800000x1, .f32⟩
  | .hbm, ⟨22, _⟩ => ⟨S_, .f32⟩
  | .hbm, ⟨23, _⟩ => ⟨S800000x1, .f32⟩
  | .hbm, ⟨24, _⟩ => ⟨S800000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S800000x320, .f32⟩
  | .hbm, ⟨44, _⟩ => ⟨S800000x128, .f32⟩
  | .hbm, ⟨45, _⟩ => ⟨S1x128, .f32⟩
  | .hbm, ⟨46, _⟩ => ⟨S800000x128, .f32⟩
  | .hbm, ⟨47, _⟩ => ⟨S800000x128, .f32⟩
  | .hbm, ⟨48, _⟩ => ⟨S_, .f32⟩
  | .hbm, ⟨49, _⟩ => ⟨S800000x128, .f32⟩
  | .hbm, ⟨50, _⟩ => ⟨S800000x128, .f32⟩
  | .hbm, ⟨51, _⟩ => ⟨S800000x128, .f32⟩
  | .hbm, ⟨52, _⟩ => ⟨S1x128, .f32⟩
  | .hbm, ⟨53, _⟩ => ⟨S800000x128, .f32⟩
  | .hbm, ⟨54, _⟩ => ⟨S800000x128, .f32⟩
  | .hbm, ⟨55, _⟩ => ⟨S800000x128, .f32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_2 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x64_S800000x320_d1 : Shape.Concatenates [S800000x128, S800000x128, S800000x64] S800000x320 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  dot_S800000x64_S64x1_S800000x1_1_0_0_1_n_n_wf : DotDims.WF S800000x64 S64x1 S800000x1 [1] [0] [0] [1] [] []
  gather_S50000x128_S800000x1_S800000x128_1_0_n_n_0_1_1128_wf : GatherDims.WF S50000x128 S800000x1 S800000x128 [1] [0] [] [0] [] 1 ![1, 128]
  dot_S800000x320_S320x128_S800000x128_1_0_0_1_n_n_wf : DotDims.WF S800000x320 S320x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1

variable [Facts₀]

def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x320_S320x128_S800000x128_1_0_0_1_n_n : DotDims S800000x320 S320x128 S800000x128 where
  lhsContracting := [1]
  rhsContracting := [0]
  lhsNonContracting := [0]
  rhsNonContracting := [1]
  lhsBatch := []
  rhsBatch := []
  wf := dot_S800000x320_S320x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelPayload.lean ====
/-
  The kernel body's one store, read at an entry, over the extended reals.

  A grid point loads its 3200 edges' blocks — the gathered source and target features `x0`, `x1` ([3200,128]), the bond
  embeddings `x2` ([3200,64]) — and, whole, the three row bands of the first layer's weight `x3`, `x4` ([128,128]) and
  `x5` ([64,128]), the biases `x6`, `x8` ([1,128]), the second layer's weight `x7` ([128,128]), the gate's weight `x9`
  ([64,1]) and bias `x10` ([1,1]). What it stores at row `r`, feature `j` is
    (Σ_k max(pre(r,k), 0)·x7[k,j] + x8[0,j]) · σ(Σ_k x2[r,k]·x9[k,0] + x10[0,0]),
    pre(r,k) = (Σ_a x0[r,a]·x3[a,k] + Σ_a x1[r,a]·x4[a,k]) + Σ_a x2[r,a]·x5[a,k] + x6[0,k].
  A matrix product into a zero accumulator is the plain sum over the contracted axis, a change of float format is
  the identity, a shape cast to the same shape is the identity, and every other operation acts entry by entry.
-/
import proofs.«167777_j35914516529888_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx

/-! ### The product `[3200, 128] × [128, 128]` read at an output index -/

theorem lhs_sq_0 (i : S3200x128.Idx) (q : dot_S3200x128_S128x128_S3200x128_1_0_0_1_n_n.contr.Idx) :
    (dot_S3200x128_S128x128_S3200x128_1_0_0_1_n_n.lhsIdx i q 0).val = (i 0).val := by
  unfold DotDims.lhsIdx
  rw [dif_neg (show ¬(0 : Fin S3200x128.rank) ∈ dot_S3200x128_S128x128_S3200x128_1_0_0_1_n_n.lhsBatch by decide), dif_pos (show (0 : Fin S3200x128.rank) ∈ dot_S3200x128_S128x128_S3200x128_1_0_0_1_n_n.lhsNonContracting by decide)]
  rfl
theorem lhs_sq_1 (i : S3200x128.Idx) (q : dot_S3200x128_S128x128_S3200x128_1_0_0_1_n_n.contr.Idx) :
    (dot_S3200x128_S128x128_S3200x128_1_0_0_1_n_n.lhsIdx i q 1).val = (q ⟨0, by decide⟩).val :=
  dot_S3200x128_S128x128_S3200x128_1_0_0_1_n_n.lhsIdx_val_of_single rfl i q
theorem rhs_sq_0 (i : S3200x128.Idx) (q : dot_S3200x128_S128x128_S3200x128_1_0_0_1_n_n.contr.Idx) :
    (dot_S3200x128_S128x128_S3200x128_1_0_0_1_n_n.rhsIdx i q 0).val = (q ⟨0, by decide⟩).val :=
  dot_S3200x128_S128x128_S3200x128_1_0_0_1_n_n.rhsIdx_val_of_single rfl i q
theorem rhs_sq_1 (i : S3200x128.Idx) (q : dot_S3200x128_S128x128_S3200x128_1_0_0_1_n_n.contr.Idx) :
    (dot_S3200x128_S128x128_S3200x128_1_0_0_1_n_n.rhsIdx i q 1).val = (i 1).val := by
  unfold DotDims.rhsIdx
  rw [dif_neg (show ¬(1 : Fin S128x128.rank) ∈ dot_S3200x128_S128x128_S3200x128_1_0_0_1_n_n.rhsBatch by decide), dif_pos (show (1 : Fin S128x128.rank) ∈ dot_S3200x128_S128x128_S3200x128_1_0_0_1_n_n.rhsNonContracting by decide)]
  rfl

/-- Into the zero accumulator the product is the plain sum over the contracted axis: entry `(p, j)` is
    `Σ_k l[p,k]·r[k,j]`. -/
theorem matmul_sq_apply (l : FVec Ideal S3200x128 .bf16) (r : FVec Ideal S128x128 .bf16) (p : Fin 3200) (j : Fin 128) :
    matmul dot_S3200x128_S128x128_S3200x128_1_0_0_1_n_n none l r (constant S3200x128 .f32 0x00000000#32) (ix2 p j)
      = ∑ k : Fin 128, l (ix2 p k) * r (ix2 k j) := by
  refine (Ideal.matmul_constant_zero_apply dot_S3200x128_S128x128_S3200x128_1_0_0_1_n_n none l r (ix2 p j)).trans ?_
  rw [← Equiv.sum_comp (ValueIdx.contrEquiv1 dot_S3200x128_S128x128_S3200x128_1_0_0_1_n_n 128 rfl rfl).symm]
  refine Finset.sum_congr rfl fun k _ => ?_
  have hk := ValueIdx.contrEquiv1_symm_val dot_S3200x128_S128x128_S3200x128_1_0_0_1_n_n 128 rfl rfl k
  have el : dot_S3200x128_S128x128_S3200x128_1_0_0_1_n_n.lhsIdx (ix2 p j) ((ValueIdx.contrEquiv1 dot_S3200x128_S128x128_S3200x128_1_0_0_1_n_n 128 rfl rfl).symm k) = ix2 p k := funext fun a => Fin.ext (by
    match a with
    | ⟨0, _⟩ => exact lhs_sq_0 _ _
    | ⟨1, _⟩ => exact (lhs_sq_1 _ _).trans hk)
  have er : dot_S3200x128_S128x128_S3200x128_1_0_0_1_n_n.rhsIdx (ix2 p j) ((ValueIdx.contrEquiv1 dot_S3200x128_S128x128_S3200x128_1_0_0_1_n_n 128 rfl rfl).symm k) = ix2 k j := funext fun a => Fin.ext (by
    match a with
    | ⟨0, _⟩ => exact (rhs_sq_0 _ _).trans hk
    | ⟨1, _⟩ => exact rhs_sq_1 _ _)
  rw [el, er]

/-! ### The product `[3200, 64] × [64, 128]` read at an output index -/

theorem lhs_bond_0 (i : S3200x128.Idx) (q : dot_S3200x64_S64x128_S3200x128_1_0_0_1_n_n.contr.Idx) :
    (dot_S3200x64_S64x128_S3200x128_1_0_0_1_n_n.lhsIdx i q 0).val = (i 0).val := by
  unfold DotDims.lhsIdx
  rw [dif_neg (show ¬(0 : Fin S3200x64.rank) ∈ dot_S3200x64_S64x128_S3200x128_1_0_0_1_n_n.lhsBatch by decide), dif_pos (show (0 : Fin S3200x64.rank) ∈ dot_S3200x64_S64x128_S3200x128_1_0_0_1_n_n.lhsNonContracting by decide)]
  rfl
theorem lhs_bond_1 (i : S3200x128.Idx) (q : dot_S3200x64_S64x128_S3200x128_1_0_0_1_n_n.contr.Idx) :
    (dot_S3200x64_S64x128_S3200x128_1_0_0_1_n_n.lhsIdx i q 1).val = (q ⟨0, by decide⟩).val :=
  dot_S3200x64_S64x128_S3200x128_1_0_0_1_n_n.lhsIdx_val_of_single rfl i q
theorem rhs_bond_0 (i : S3200x128.Idx) (q : dot_S3200x64_S64x128_S3200x128_1_0_0_1_n_n.contr.Idx) :
    (dot_S3200x64_S64x128_S3200x128_1_0_0_1_n_n.rhsIdx i q 0).val = (q ⟨0, by decide⟩).val :=
  dot_S3200x64_S64x128_S3200x128_1_0_0_1_n_n.rhsIdx_val_of_single rfl i q
theorem rhs_bond_1 (i : S3200x128.Idx) (q : dot_S3200x64_S64x128_S3200x128_1_0_0_1_n_n.contr.Idx) :
    (dot_S3200x64_S64x128_S3200x128_1_0_0_1_n_n.rhsIdx i q 1).val = (i 1).val := by
  unfold DotDims.rhsIdx
  rw [dif_neg (show ¬(1 : Fin S64x128.rank) ∈ dot_S3200x64_S64x128_S3200x128_1_0_0_1_n_n.rhsBatch by decide), dif_pos (show (1 : Fin S64x128.rank) ∈ dot_S3200x64_S64x128_S3200x128_1_0_0_1_n_n.rhsNonContracting by decide)]
  rfl

/-- Into the zero accumulator the product is the plain sum over the contracted axis: entry `(p, j)` is
    `Σ_k l[p,k]·r[k,j]`. -/
theorem matmul_bond_apply (l : FVec Ideal S3200x64 .bf16) (r : FVec Ideal S64x128 .bf16) (p : Fin 3200) (j : Fin 128) :
    matmul dot_S3200x64_S64x128_S3200x128_1_0_0_1_n_n none l r (constant S3200x128 .f32 0x00000000#32) (ix2 p j)
      = ∑ k : Fin 64, l (ix2 p k) * r (ix2 k j) := by
  refine (Ideal.matmul_constant_zero_apply dot_S3200x64_S64x128_S3200x128_1_0_0_1_n_n none l r (ix2 p j)).trans ?_
  rw [← Equiv.sum_comp (ValueIdx.contrEquiv1 dot_S3200x64_S64x128_S3200x128_1_0_0_1_n_n 64 rfl rfl).symm]
  refine Finset.sum_congr rfl fun k _ => ?_
  have hk := ValueIdx.contrEquiv1_symm_val dot_S3200x64_S64x128_S3200x128_1_0_0_1_n_n 64 rfl rfl k
  have el : dot_S3200x64_S64x128_S3200x128_1_0_0_1_n_n.lhsIdx (ix2 p j) ((ValueIdx.contrEquiv1 dot_S3200x64_S64x128_S3200x128_1_0_0_1_n_n 64 rfl rfl).symm k) = ix2 p k := funext fun a => Fin.ext (by
    match a with
    | ⟨0, _⟩ => exact lhs_bond_0 _ _
    | ⟨1, _⟩ => exact (lhs_bond_1 _ _).trans hk)
  have er : dot_S3200x64_S64x128_S3200x128_1_0_0_1_n_n.rhsIdx (ix2 p j) ((ValueIdx.contrEquiv1 dot_S3200x64_S64x128_S3200x128_1_0_0_1_n_n 64 rfl rfl).symm k) = ix2 k j := funext fun a => Fin.ext (by
    match a with
    | ⟨0, _⟩ => exact (rhs_bond_0 _ _).trans hk
    | ⟨1, _⟩ => exact rhs_bond_1 _ _)
  rw [el, er]

/-! ### The product `[3200, 64] × [64, 1]` read at an output index -/

theorem lhs_gate_0 (i : S3200x1.Idx) (q : dot_S3200x64_S64x1_S3200x1_1_0_0_1_n_n.contr.Idx) :
    (dot_S3200x64_S64x1_S3200x1_1_0_0_1_n_n.lhsIdx i q 0).val = (i 0).val := by
  unfold DotDims.lhsIdx
  rw [dif_neg (show ¬(0 : Fin S3200x64.rank) ∈ dot_S3200x64_S64x1_S3200x1_1_0_0_1_n_n.lhsBatch by decide), dif_pos (show (0 : Fin S3200x64.rank) ∈ dot_S3200x64_S64x1_S3200x1_1_0_0_1_n_n.lhsNonContracting by decide)]
  rfl
theorem lhs_gate_1 (i : S3200x1.Idx) (q : dot_S3200x64_S64x1_S3200x1_1_0_0_1_n_n.contr.Idx) :
    (dot_S3200x64_S64x1_S3200x1_1_0_0_1_n_n.lhsIdx i q 1).val = (q ⟨0, by decide⟩).val :=
  dot_S3200x64_S64x1_S3200x1_1_0_0_1_n_n.lhsIdx_val_of_single rfl i q
theorem rhs_gate_0 (i : S3200x1.Idx) (q : dot_S3200x64_S64x1_S3200x1_1_0_0_1_n_n.contr.Idx) :
    (dot_S3200x64_S64x1_S3200x1_1_0_0_1_n_n.rhsIdx i q 0).val = (q ⟨0, by decide⟩).val :=
  dot_S3200x64_S64x1_S3200x1_1_0_0_1_n_n.rhsIdx_val_of_single rfl i q
theorem rhs_gate_1 (i : S3200x1.Idx) (q : dot_S3200x64_S64x1_S3200x1_1_0_0_1_n_n.contr.Idx) :
    (dot_S3200x64_S64x1_S3200x1_1_0_0_1_n_n.rhsIdx i q 1).val = (i 1).val := by
  unfold DotDims.rhsIdx
  rw [dif_neg (show ¬(1 : Fin S64x1.rank) ∈ dot_S3200x64_S64x1_S3200x1_1_0_0_1_n_n.rhsBatch by decide), dif_pos (show (1 : Fin S64x1.rank) ∈ dot_S3200x64_S64x1_S3200x1_1_0_0_1_n_n.rhsNonContracting by decide)]
  rfl

/-- Into the zero accumulator the product is the plain sum over the contracted axis: entry `(p, j)` is
    `Σ_k l[p,k]·r[k,j]`. -/
theorem matmul_gate_apply (l : FVec Ideal S3200x64 .bf16) (r : FVec Ideal S64x1 .bf16) (p : Fin 3200) (j : Fin 1) :
    matmul dot_S3200x64_S64x1_S3200x1_1_0_0_1_n_n none l r (constant S3200x1 .f32 0x00000000#32) (ix2 p j)
      = ∑ k : Fin 64, l (ix2 p k) * r (ix2 k j) := by
  refine (Ideal.matmul_constant_zero_apply dot_S3200x64_S64x1_S3200x1_1_0_0_1_n_n none l r (ix2 p j)).trans ?_
  rw [← Equiv.sum_comp (ValueIdx.contrEquiv1 dot_S3200x64_S64x1_S3200x1_1_0_0_1_n_n 64 rfl rfl).symm]
  refine Finset.sum_congr rfl fun k _ => ?_
  have hk := ValueIdx.contrEquiv1_symm_val dot_S3200x64_S64x1_S3200x1_1_0_0_1_n_n 64 rfl rfl k
  have el : dot_S3200x64_S64x1_S3200x1_1_0_0_1_n_n.lhsIdx (ix2 p j) ((ValueIdx.contrEquiv1 dot_S3200x64_S64x1_S3200x1_1_0_0_1_n_n 64 rfl rfl).symm k) = ix2 p k := funext fun a => Fin.ext (by
    match a with
    | ⟨0, _⟩ => exact lhs_gate_0 _ _
    | ⟨1, _⟩ => exact (lhs_gate_1 _ _).trans hk)
  have er : dot_S3200x64_S64x1_S3200x1_1_0_0_1_n_n.rhsIdx (ix2 p j) ((ValueIdx.contrEquiv1 dot_S3200x64_S64x1_S3200x1_1_0_0_1_n_n 64 rfl rfl).symm k) = ix2 k j := funext fun a => Fin.ext (by
    match a with
    | ⟨0, _⟩ => exact (rhs_gate_0 _ _).trans hk
    | ⟨1, _⟩ => exact rhs_gate_1 _ _)
  rw [el, er]

/-! ### One column broadcast over many -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The stored value at an entry -/

section
variable (x0 x1 : Vec Ideal S3200x128 .bf16) (x2 : Vec Ideal S3200x64 .bf16) (x3 x4 : Vec Ideal S128x128 .bf16)
  (x5 : Vec Ideal S64x128 .bf16) (x6 : Vec Ideal S1x128 .f32) (x7 : Vec Ideal S128x128 .bf16) (x8 : Vec Ideal S1x128 .f32)
  (x9 : Vec Ideal S64x1 .bf16) (x10 : Vec Ideal S1x1 .f32)

/-- The first layer before its activation at row `r`, unit `k` of the block. -/
def blockPre (r : Fin 3200) (k : Fin 128) : EReal :=
  ((∑ a : Fin 128, x0 (ix2 r a) * x3 (ix2 a k) + ∑ a : Fin 128, x1 (ix2 r a) * x4 (ix2 a k))
    + ∑ a : Fin 64, x2 (ix2 r a) * x5 (ix2 a k))
  + x6 (ix2 (0 : Fin 1) k)

/-- The block's gate at row `r`. -/
def blockGate (r : Fin 3200) : EReal :=
  Ideal.logistic ((∑ k : Fin 64, x2 (ix2 r k) * x9 (ix2 k (0 : Fin 1))) + x10 (ix2 (0 : Fin 1) (0 : Fin 1)))

/-- The block's message at row `r`, feature `j`. -/
def blockMessage (r : Fin 3200) (j : Fin 128) : EReal :=
  ((∑ k : Fin 128, max (blockPre x0 x1 x2 x3 x4 x5 x6 r k) (Ideal.ofBits .f32 0x00000000#32) * x7 (ix2 k j))
      + x8 (ix2 (0 : Fin 1) j))
    * blockGate x2 x9 x10 r

/-- The linear part of the body (second layer of the rectified first layer) at an entry. -/
theorem pay3_apply (r : Fin 3200) (j : Fin 128) :
    k0_pay3 (F := Ideal) x0 x1 x2 x3 x4 x5 x6 x7 x8 (ix2 r j)
      = (∑ k : Fin 128, max (blockPre x0 x1 x2 x3 x4 x5 x6 r k) (Ideal.ofBits .f32 0x00000000#32) * x7 (ix2 k j))
        + x8 (ix2 (0 : Fin 1) j) := by
  unfold k0_pay3 k0_pay2
  simp only [shapeCast_self]
  rw [addf_apply, matmul_sq_apply, broadcastTo_1b_ab_apply]
  refine congrArg (fun s : EReal => s + x8 (ix2 (0 : Fin 1) j)) (Finset.sum_congr rfl fun k _ => ?_)
  rw [truncf_apply, maximumf_apply, addf_apply, addf_apply, addf_apply, matmul_sq_apply, matmul_sq_apply,
    matmul_bond_apply, broadcastTo_1b_ab_apply]
  rfl

/-- The gate of the body at a row: the logistic function of the bond score. -/
theorem gate_apply (r : Fin 3200) :
    logistic (F := Ideal) (addf (matmul (φ₁ := .bf16) (φ₂ := .bf16) dot_S3200x64_S64x1_S3200x1_1_0_0_1_n_n none x2 x9 (constant S3200x1 .f32 0x00000000#32))
        (broadcastTo S3200x1 x10 broadcasts_S1x1_S3200x1)) (ix2 r (0 : Fin 1))
      = blockGate x2 x9 x10 r := by
  show Ideal.logistic ((addf (matmul (φ₁ := .bf16) (φ₂ := .bf16) dot_S3200x64_S64x1_S3200x1_1_0_0_1_n_n none x2 x9 (constant (F := Ideal) S3200x1 .f32 0x00000000#32))
        (broadcastTo S3200x1 x10 broadcasts_S1x1_S3200x1)) (ix2 r (0 : Fin 1))) = _
  rw [addf_apply, matmul_gate_apply, broadcastTo_1b_ab_apply]
  rfl

/-- What the body stores, at an entry. -/
theorem stored_apply (r : Fin 3200) (j : Fin 128) :
    k0_pay1 (F := Ideal) (k0_pay2 x2) (k0_pay3 x0 x1 x2 x3 x4 x5 x6 x7 x8) (k0_pay4 x9) (constant S3200x1 .f32 0x00000000#32) x10 (ix2 r j)
      = blockMessage x0 x1 x2 x3 x4 x5 x6 x7 x8 x9 x10 r j := by
  unfold k0_pay1 k0_pay2 k0_pay4
  simp only [shapeCast_self]
  rw [mulf_apply, pay3_apply, broadcastTo_a1_ab_apply, gate_apply]
  rfl

end

end Cert.KernelIdeal.Payload

end
-- ==== Proof.MessageSpec.lean ====
/-
  The per-edge message of the graph convolution as ONE function of whole arrays, over the extended reals.

  For edge `e` and output feature `j`:
    pre(e, k)  = (Σ_a hr[e,a]·W1[a,k] + Σ_a hc[e,a]·W1[128+a,k]) + Σ_a bond[e,a]·W1[256+a,k] + b1[k]
    msg(e, j)  = (Σ_k max(pre(e,k), 0)·W2[k,j] + b2[j]) · σ(Σ_k bond[e,k]·Wa[k,0] + ba[0])
  where `hr`, `hc` are the node features gathered at the edge's two endpoints, the first layer's weight is read in
  three row bands (rows 0–127, 128–255, 256–319: the bands that meet the source features, the target features and the
  bond embedding), and σ is the logistic function `1 / (1 + e⁻ˣ)`.

  The bands laid end to end are the 320 rows of the weight: a sum over the 320 rows is the three band sums
  (`sum_bands`), which is how a product with the concatenated row `[hr | hc | bond]` meets the three separate products.
  Only commutativity and associativity of `+` on the extended reals are used: no finiteness.
-/
import Idealize.ShloMosaic.PureOps.Ideal
import Idealize.ShloMosaic.Lib.ValueIdx

noncomputable section

namespace Cert.EdgeMessage

open Idealize.ShloMosaic Idealize.ShloMosaic.ValueIdx

/-- Row `a` of the band of `n` rows of the first layer's weight that starts at row `off`. -/
abbrev bandRow (off n : Nat) (h : off + n ≤ 320) (a : Fin n) : Fin 320 := ⟨off + a.val, by have := a.isLt; omega⟩

/-- The first layer before its activation, for edge `e` at hidden unit `k`: the three band products, summed in the
    order source, target, bond, then the bias. -/
def preact (hr hc : (⟨2, ![800000, 128]⟩ : Shape).Idx → EReal) (bond : (⟨2, ![800000, 64]⟩ : Shape).Idx → EReal)
    (W1 : (⟨2, ![320, 128]⟩ : Shape).Idx → EReal) (b1 : (⟨1, ![128]⟩ : Shape).Idx → EReal)
    (e : Fin 800000) (k : Fin 128) : EReal :=
  ((∑ a : Fin 128, hr (ix2 e a) * W1 (ix2 (bandRow 0 128 (by decide) a) k)
      + ∑ a : Fin 128, hc (ix2 e a) * W1 (ix2 (bandRow 128 128 (by decide) a) k))
    + ∑ a : Fin 64, bond (ix2 e a) * W1 (ix2 (bandRow 256 64 (by decide) a) k))
  + b1 (ix1 k)

/-- The edge's gate: the logistic function of the bond embedding's one linear score. -/
def gate (bond : (⟨2, ![800000, 64]⟩ : Shape).Idx → EReal) (Wa : (⟨2, ![64, 1]⟩ : Shape).Idx → EReal)
    (ba : (⟨1, ![1]⟩ : Shape).Idx → EReal) (e : Fin 800000) : EReal :=
  Ideal.logistic ((∑ k : Fin 64, bond (ix2 e k) * Wa (ix2 k (0 : Fin 1))) + ba (ix1 (0 : Fin 1)))

/-- The message of edge `i 0` at feature `i 1`: the second layer of the rectified first layer, gated. -/
def message (hr hc : (⟨2, ![800000, 128]⟩ : Shape).Idx → EReal) (bond : (⟨2, ![800000, 64]⟩ : Shape).Idx → EReal)
    (W1 : (⟨2, ![320, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (Wa : (⟨2, ![64, 1]⟩ : Shape).Idx → EReal) (ba : (⟨1, ![1]⟩ : Shape).Idx → EReal) :
    (⟨2, ![800000, 128]⟩ : Shape).Idx → EReal := fun i =>
  ((∑ k : Fin 128, max (preact hr hc bond W1 b1 (i 0) k) (Ideal.ofBits .f32 0x00000000#32) * W2 (ix2 k (i 1)))
      + b2 (ix1 (i 1)))
    * gate bond Wa ba (i 0)

/-- A sum over the 320 rows is the sum of the three band sums. -/
theorem sum_bands (f : Fin 320 → EReal) :
    ∑ a : Fin 320, f a
      = (∑ a : Fin 128, f (bandRow 0 128 (by decide) a) + ∑ a : Fin 128, f (bandRow 128 128 (by decide) a))
        + ∑ a : Fin 64, f (bandRow 256 64 (by decide) a) := by
  have h1 : ∑ a : Fin (256 + 64), f a
      = ∑ a : Fin 256, f (Fin.castAdd 64 a) + ∑ a : Fin 64, f (Fin.natAdd 256 a) :=
    Fin.sum_univ_add (a := 256) (b := 64) fun a : Fin (256 + 64) => f a
  have h2 : ∑ a : Fin (128 + 128), f (Fin.castAdd 64 a)
      = ∑ a : Fin 128, f (Fin.castAdd 64 (Fin.castAdd 128 a)) + ∑ a : Fin 128, f (Fin.castAdd 64 (Fin.natAdd 128 a)) :=
    Fin.sum_univ_add (a := 128) (b := 128) fun a : Fin (128 + 128) => f (Fin.castAdd 64 a)
  refine h1.trans ?_
  refine congrArg₂ (· + ·) (h2.trans ?_) ?_
  · refine congrArg₂ (· + ·) ?_ ?_
    · exact Finset.sum_congr rfl fun a _ => congrArg f (Fin.ext (by show a.val = 0 + a.val; omega))
    · exact Finset.sum_congr rfl fun a _ => congrArg f (Fin.ext rfl)
  · exact Finset.sum_congr rfl fun a _ => congrArg f (Fin.ext rfl)

end Cert.EdgeMessage

end
-- ==== Proof.KernelBlocks.lean ====
/-
  From the grid points' blocks to the message array.

  The grid has 250 points; point `t` works on edges `3200·t … 3200·t + 3199`: the three per-edge operands and the
  output are cut into row blocks of 3200 (block index `(t, 0)`), the eight weight and bias operands are whole at every
  point (block index `(0, 0)`). So row `r` of what point `t` writes back is the message of edge `3200·t + r`, computed
  from rows of the region-entry arrays, and since every edge `e` lies in the block of point `e / 3200`, the blocks
  tile the output: after the run it holds the message function of the region-entry arrays at every index.
  Stated against ANY reading of those arrays (`hr`, `hc`, `bond`, the weight read in its three row bands, …) given
  entry by entry, so that what the host lines before the region computed enters only through these hypotheses.
-/
import proofs.«167777_j35914516529888_1_alg».proof.Proof.Gen.KernelIdeal.Frame
import proofs.«167777_j35914516529888_1_alg».proof.Proof.KernelPayload
import proofs.«167777_j35914516529888_1_alg».proof.Proof.MessageSpec

set_option maxRecDepth 16384

noncomputable section

namespace Cert.KernelIdeal.Blocks

open Cert.KernelIdeal Cert.KernelIdeal.Gen Cert.KernelIdeal.Payload Cert.EdgeMessage
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

theorem origin_zero : (![0, 0] : Fin 2 → Nat) = fun _ => 0 := funext fun a => by fin_cases a <;> rfl

/-- The printed index maps, decided over the grid: the per-edge windows and the output move with the point along the
    rows, the others stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- The edge that row `r` of point `t`'s blocks belongs to. -/
def edgeOf (t : Fin cfg0.N) (r : Fin 3200) : Fin 800000 :=
  ⟨t.val * 3200 + r.val, by have ht : t.val < 250 := lt_of_lt_of_eq t.isLt N_0; have := r.isLt; omega⟩

/-! ## Each window's block read off its array -/

/-- Window 0's block at point `t` is rows `3200·t … 3200·t + 3199` of its array. -/
theorem read0 (c : Dev nD) (t : Fin cfg0.N) (r : Fin 3200) (a : Fin 128) :
    iblk m c 0 t (ix2 r a) = V m c main_v11 (ix2 (edgeOf t r) a) := by
  show V m c main_v11 (((cfg0.win 0).blk t).view.emb (ix2 r a)) = V m c main_v11 (ix2 (edgeOf t r) a)
  have h : ((cfg0.win 0).blk t).view.emb (ix2 r a) = ix2 (edgeOf t r) a := by
    obtain ⟨f0a, f0b, f1a, f1b, f2a, f2b, f11a, f11b, f3a, f3b, f4a, f4b, f5a, f5b, f6a, f6b, f7a, f7b, f8a, f8b, f9a, f9b, f10a, f10b⟩ := idx_facts t
    funext ax; apply Fin.ext
    match ax with
    | ⟨0, _⟩ => show win0_0.index t (0 : Fin 2) * 3200 + 1 * r.val = t.val * 3200 + r.val; omega
    | ⟨1, _⟩ => show win0_0.index t (1 : Fin 2) * 128 + 1 * a.val = a.val; omega
  rw [h]

/-- Window 1's block at point `t` is rows `3200·t … 3200·t + 3199` of its array. -/
theorem read1 (c : Dev nD) (t : Fin cfg0.N) (r : Fin 3200) (a : Fin 128) :
    iblk m c 1 t (ix2 r a) = V m c main_v18 (ix2 (edgeOf t r) a) := by
  show V m c main_v18 (((cfg0.win 1).blk t).view.emb (ix2 r a)) = V m c main_v18 (ix2 (edgeOf t r) a)
  have h : ((cfg0.win 1).blk t).view.emb (ix2 r a) = ix2 (edgeOf t r) a := by
    obtain ⟨f0a, f0b, f1a, f1b, f2a, f2b, f11a, f11b, f3a, f3b, f4a, f4b, f5a, f5b, f6a, f6b, f7a, f7b, f8a, f8b, f9a, f9b, f10a, f10b⟩ := idx_facts t
    funext ax; apply Fin.ext
    match ax with
    | ⟨0, _⟩ => show win0_1.index t (0 : Fin 2) * 3200 + 1 * r.val = t.val * 3200 + r.val; omega
    | ⟨1, _⟩ => show win0_1.index t (1 : Fin 2) * 128 + 1 * a.val = a.val; omega
  rw [h]

/-- Window 2's block at point `t` is rows `3200·t … 3200·t + 3199` of its array. -/
theorem read2 (c : Dev nD) (t : Fin cfg0.N) (r : Fin 3200) (a : Fin 64) :
    iblk m c 2 t (ix2 r a) = V m c main_v19 (ix2 (edgeOf t r) a) := by
  show V m c main_v19 (((cfg0.win 2).blk t).view.emb (ix2 r a)) = V m c main_v19 (ix2 (edgeOf t r) a)
  have h : ((cfg0.win 2).blk t).view.emb (ix2 r a) = ix2 (edgeOf t r) a := by
    obtain ⟨f0a, f0b, f1a, f1b, f2a, f2b, f11a, f11b, f3a, f3b, f4a, f4b, f5a, f5b, f6a, f6b, f7a, f7b, f8a, f8b, f9a, f9b, f10a, f10b⟩ := idx_facts t
    funext ax; apply Fin.ext
    match ax with
    | ⟨0, _⟩ => show win0_2.index t (0 : Fin 2) * 3200 + 1 * r.val = t.val * 3200 + r.val; omega
    | ⟨1, _⟩ => show win0_2.index t (1 : Fin 2) * 64 + 1 * a.val = a.val; omega
  rw [h]

/-- Window 3 is its whole array at every point. -/
theorem read3 (c : Dev nD) (t : Fin cfg0.N) (a : Fin 128) (k : Fin 128) :
    iblk m c 3 t (ix2 a k) = V m c main_v21 (ix2 a k) := by
  show V m c main_v21 (((cfg0.win 3).blk t).view.emb (ix2 a k)) = V m c main_v21 (ix2 a k)
  have h : ((cfg0.win 3).blk t).view.emb (ix2 a k) = ix2 a k := by
    obtain ⟨f0a, f0b, f1a, f1b, f2a, f2b, f11a, f11b, f3a, f3b, f4a, f4b, f5a, f5b, f6a, f6b, f7a, f7b, f8a, f8b, f9a, f9b, f10a, f10b⟩ := idx_facts t
    funext ax; apply Fin.ext
    match ax with
    | ⟨0, _⟩ => show win0_3.index t (0 : Fin 2) * 128 + 1 * a.val = a.val; omega
    | ⟨1, _⟩ => show win0_3.index t (1 : Fin 2) * 128 + 1 * k.val = k.val; omega
  rw [h]

/-- Window 4 is its whole array at every point. -/
theorem read4 (c : Dev nD) (t : Fin cfg0.N) (a : Fin 128) (k : Fin 128) :
    iblk m c 4 t (ix2 a k) = V m c main_v23 (ix2 a k) := by
  show V m c main_v23 (((cfg0.win 4).blk t).view.emb (ix2 a k)) = V m c main_v23 (ix2 a k)
  have h : ((cfg0.win 4).blk t).view.emb (ix2 a k) = ix2 a k := by
    obtain ⟨f0a, f0b, f1a, f1b, f2a, f2b, f11a, f11b, f3a, f3b, f4a, f4b, f5a, f5b, f6a, f6b, f7a, f7b, f8a, f8b, f9a, f9b, f10a, f10b⟩ := idx_facts t
    funext ax; apply Fin.ext
    match ax with
    | ⟨0, _⟩ => show win0_4.index t (0 : Fin 2) * 128 + 1 * a.val = a.val; omega
    | ⟨1, _⟩ => show win0_4.index t (1 : Fin 2) * 128 + 1 * k.val = k.val; omega
  rw [h]

/-- Window 5 is its whole array at every point. -/
theorem read5 (c : Dev nD) (t : Fin cfg0.N) (a : Fin 64) (k : Fin 128) :
    iblk m c 5 t (ix2 a k) = V m c main_v25 (ix2 a k) := by
  show V m c main_v25 (((cfg0.win 5).blk t).view.emb (ix2 a k)) = V m c main_v25 (ix2 a k)
  have h : ((cfg0.win 5).blk t).view.emb (ix2 a k) = ix2 a k := by
    obtain ⟨f0a, f0b, f1a, f1b, f2a, f2b, f11a, f11b, f3a, f3b, f4a, f4b, f5a, f5b, f6a, f6b, f7a, f7b, f8a, f8b, f9a, f9b, f10a, f10b⟩ := idx_facts t
    funext ax; apply Fin.ext
    match ax with
    | ⟨0, _⟩ => show win0_5.index t (0 : Fin 2) * 64 + 1 * a.val = a.val; omega
    | ⟨1, _⟩ => show win0_5.index t (1 : Fin 2) * 128 + 1 * k.val = k.val; omega
  rw [h]

/-- Window 6 is its whole array at every point. -/
theorem read6 (c : Dev nD) (t : Fin cfg0.N) (a : Fin 1) (k : Fin 128) :
    iblk m c 6 t (ix2 a k) = V m c main_v28 (ix2 a k) := by
  show V m c main_v28 (((cfg0.win 6).blk t).view.emb (ix2 a k)) = V m c main_v28 (ix2 a k)
  have h : ((cfg0.win 6).blk t).view.emb (ix2 a k) = ix2 a k := by
    obtain ⟨f0a, f0b, f1a, f1b, f2a, f2b, f11a, f11b, f3a, f3b, f4a, f4b, f5a, f5b, f6a, f6b, f7a, f7b, f8a, f8b, f9a, f9b, f10a, f10b⟩ := idx_facts t
    funext ax; apply Fin.ext
    match ax with
    | ⟨0, _⟩ => show win0_6.index t (0 : Fin 2) * 1 + 1 * a.val = a.val; omega
    | ⟨1, _⟩ => show win0_6.index t (1 : Fin 2) * 128 + 1 * k.val = k.val; omega
  rw [h]

/-- Window 7 is its whole array at every point. -/
theorem read7 (c : Dev nD) (t : Fin cfg0.N) (a : Fin 128) (k : Fin 128) :
    iblk m c 7 t (ix2 a k) = V m c main_v26 (ix2 a k) := by
  show V m c main_v26 (((cfg0.win 7).blk t).view.emb (ix2 a k)) = V m c main_v26 (ix2 a k)
  have h : ((cfg0.win 7).blk t).view.emb (ix2 a k) = ix2 a k := by
    obtain ⟨f0a, f0b, f1a, f1b, f2a, f2b, f11a, f11b, f3a, f3b, f4a, f4b, f5a, f5b, f6a, f6b, f7a, f7b, f8a, f8b, f9a, f9b, f10a, f10b⟩ := idx_facts t
    funext ax; apply Fin.ext
    match ax with
    | ⟨0, _⟩ => show win0_7.index t (0 : Fin 2) * 128 + 1 * a.val = a.val; omega
    | ⟨1, _⟩ => show win0_7.index t (1 : Fin 2) * 128 + 1 * k.val = k.val; omega
  rw [h]

/-- Window 8 is its whole array at every point. -/
theorem read8 (c : Dev nD) (t : Fin cfg0.N) (a : Fin 1) (k : Fin 128) :
    iblk m c 8 t (ix2 a k) = V m c main_v29 (ix2 a k) := by
  show V m c main_v29 (((cfg0.win 8).blk t).view.emb (ix2 a k)) = V m c main_v29 (ix2 a k)
  have h : ((cfg0.win 8).blk t).view.emb (ix2 a k) = ix2 a k := by
    obtain ⟨f0a, f0b, f1a, f1b, f2a, f2b, f11a, f11b, f3a, f3b, f4a, f4b, f5a, f5b, f6a, f6b, f7a, f7b, f8a, f8b, f9a, f9b, f10a, f10b⟩ := idx_facts t
    funext ax; apply Fin.ext
    match ax with
    | ⟨0, _⟩ => show win0_8.index t (0 : Fin 2) * 1 + 1 * a.val = a.val; omega
    | ⟨1, _⟩ => show win0_8.index t (1 : Fin 2) * 128 + 1 * k.val = k.val; omega
  rw [h]

/-- Window 9 is its whole array at every point. -/
theorem read9 (c : Dev nD) (t : Fin cfg0.N) (a : Fin 64) (k : Fin 1) :
    iblk m c 9 t (ix2 a k) = V m c main_v27 (ix2 a k) := by
  show V m c main_v27 (((cfg0.win 9).blk t).view.emb (ix2 a k)) = V m c main_v27 (ix2 a k)
  have h : ((cfg0.win 9).blk t).view.emb (ix2 a k) = ix2 a k := by
    obtain ⟨f0a, f0b, f1a, f1b, f2a, f2b, f11a, f11b, f3a, f3b, f4a, f4b, f5a, f5b, f6a, f6b, f7a, f7b, f8a, f8b, f9a, f9b, f10a, f10b⟩ := idx_facts t
    funext ax; apply Fin.ext
    match ax with
    | ⟨0, _⟩ => show win0_9.index t (0 : Fin 2) * 64 + 1 * a.val = a.val; omega
    | ⟨1, _⟩ => show win0_9.index t (1 : Fin 2) * 1 + 1 * k.val = k.val; omega
  rw [h]

/-- Window 10 is its whole array at every point. -/
theorem read10 (c : Dev nD) (t : Fin cfg0.N) (a : Fin 1) (k : Fin 1) :
    iblk m c 10 t (ix2 a k) = V m c main_v30 (ix2 a k) := by
  show V m c main_v30 (((cfg0.win 10).blk t).view.emb (ix2 a k)) = V m c main_v30 (ix2 a k)
  have h : ((cfg0.win 10).blk t).view.emb (ix2 a k) = ix2 a k := by
    obtain ⟨f0a, f0b, f1a, f1b, f2a, f2b, f11a, f11b, f3a, f3b, f4a, f4b, f5a, f5b, f6a, f6b, f7a, f7b, f8a, f8b, f9a, f9b, f10a, f10b⟩ := idx_facts t
    funext ax; apply Fin.ext
    match ax with
    | ⟨0, _⟩ => show win0_10.index t (0 : Fin 2) * 1 + 1 * a.val = a.val; omega
    | ⟨1, _⟩ => show win0_10.index t (1 : Fin 2) * 1 + 1 * k.val = k.val; omega
  rw [h]

/-! ## What a point writes back -/

section
variable (hr hc : (⟨2, ![800000, 128]⟩ : Shape).Idx → EReal) (bond : (⟨2, ![800000, 64]⟩ : Shape).Idx → EReal)
  (W1 : (⟨2, ![320, 128]⟩ : Shape).Idx → EReal) (b1 : (⟨1, ![128]⟩ : Shape).Idx → EReal)
  (W2 : (⟨2, ![128, 128]⟩ : Shape).Idx → EReal) (b2 : (⟨1, ![128]⟩ : Shape).Idx → EReal)
  (Wa : (⟨2, ![64, 1]⟩ : Shape).Idx → EReal) (ba : (⟨1, ![1]⟩ : Shape).Idx → EReal)

/-- The region-entry arrays read entry by entry as the message function's arguments. -/
structure Reads (c : Dev nD) : Prop where
  src : ∀ (e : Fin 800000) (a : Fin 128), V m c main_v11 (ix2 e a) = hr (ix2 e a)
  dst : ∀ (e : Fin 800000) (a : Fin 128), V m c main_v18 (ix2 e a) = hc (ix2 e a)
  bnd : ∀ (e : Fin 800000) (a : Fin 64), V m c main_v19 (ix2 e a) = bond (ix2 e a)
  w1a : ∀ (a k : Fin 128), V m c main_v21 (ix2 a k) = W1 (ix2 (bandRow 0 128 (by decide) a) k)
  w1b : ∀ (a k : Fin 128), V m c main_v23 (ix2 a k) = W1 (ix2 (bandRow 128 128 (by decide) a) k)
  w1c : ∀ (a : Fin 64) (k : Fin 128), V m c main_v25 (ix2 a k) = W1 (ix2 (bandRow 256 64 (by decide) a) k)
  bias1 : ∀ k : Fin 128, V m c main_v28 (ix2 (0 : Fin 1) k) = b1 (ix1 k)
  w2 : ∀ k j : Fin 128, V m c main_v26 (ix2 k j) = W2 (ix2 k j)
  bias2 : ∀ j : Fin 128, V m c main_v29 (ix2 (0 : Fin 1) j) = b2 (ix1 j)
  wa : ∀ k : Fin 64, V m c main_v27 (ix2 k (0 : Fin 1)) = Wa (ix2 k (0 : Fin 1))
  biasa : V m c main_v30 (ix2 (0 : Fin 1) (0 : Fin 1)) = ba (ix1 (0 : Fin 1))

/-- Row `r`, feature `j` of the blocks' message at point `t` is the message of edge `3200·t + r`. -/
theorem blockMessage_eq (c : Dev nD) (H : Reads m hr hc bond W1 b1 W2 b2 Wa ba c) (t : Fin cfg0.N) (r : Fin 3200) (j : Fin 128) :
    blockMessage (iblk m c 0 t) (iblk m c 1 t) (iblk m c 2 t) (iblk m c 3 t) (iblk m c 4 t) (iblk m c 5 t) (iblk m c 6 t)
        (iblk m c 7 t) (iblk m c 8 t) (iblk m c 9 t) (iblk m c 10 t) r j
      = message hr hc bond W1 b1 W2 b2 Wa ba (ix2 (edgeOf t r) j) := by
  unfold blockMessage blockGate blockPre message gate preact
  simp only [read0, read1, read2, read3, read4, read5, read6, read7, read8, read9, read10,
    H.src, H.dst, H.bnd, H.w1a, H.w1b, H.w1c, H.bias1, H.w2, H.bias2, H.wa, H.biasa]

/-- WHAT POINT `t` WRITES BACK is block `t` of the message array. -/
theorem flushed_eq (c : Dev nD) (H : Reads m hr hc bond W1 b1 W2 b2 Wa ba c) (t : Fin cfg0.N) :
    (dats m 0 c).flushed 11 t = ((cfg0.win 11).blk t).view.read (Elt Ideal) (message hr hc bond W1 b1 W2 b2 Wa ba) := by
  show (cfg0.win 11).cut (grid0.coords t) ((dats m 0 c).after 11 t) = _
  rw [after0_11]
  unfold out0_11
  rw [View.canon_unit_zero origin_zero]
  simp only [View.ld_unit_zero (S := S3200x128) origin_zero, View.ld_unit_zero (S := S3200x64) origin_zero,
    View.ld_unit_zero (S := S128x128) origin_zero, View.ld_unit_zero (S := S64x128) origin_zero,
    View.ld_unit_zero (S := S1x128) origin_zero, View.ld_unit_zero (S := S64x1) origin_zero,
    View.ld_unit_zero (S := S1x1) origin_zero]
  funext y
  obtain ⟨r, j, rfl⟩ : ∃ (r : Fin 3200) (j : Fin 128), y = ix2 r j := ⟨y 0, y 1, eq_ix2 y⟩
  have hemb : ((cfg0.win 11).blk t).view.emb (ix2 r j) = ix2 (edgeOf t r) j := by
    obtain ⟨f0a, f0b, f1a, f1b, f2a, f2b, f11a, f11b, f3a, f3b, f4a, f4b, f5a, f5b, f6a, f6b, f7a, f7b, f8a, f8b, f9a, f9b, f10a, f10b⟩ := idx_facts t
    funext ax; apply Fin.ext
    match ax with
    | ⟨0, _⟩ => show win0_11.index t (0 : Fin 2) * 3200 + 1 * r.val = t.val * 3200 + r.val; omega
    | ⟨1, _⟩ => show win0_11.index t (1 : Fin 2) * 128 + 1 * j.val = j.val; omega
  show k0_pay1 (F := Ideal) (k0_pay2 (iblk m c 2 t)) (k0_pay3 (iblk m c 0 t) (iblk m c 1 t) (iblk m c 2 t) (iblk m c 3 t) (iblk m c 4 t) (iblk m c 5 t) (iblk m c 6 t) (iblk m c 7 t) (iblk m c 8 t))
      (k0_pay4 (iblk m c 9 t)) (constant S3200x1 .f32 0x00000000#32) (iblk m c 10 t) (ix2 r j)
    = message hr hc bond W1 b1 W2 b2 Wa ba (((cfg0.win 11).blk t).view.emb (ix2 r j))
  rw [hemb]
  exact (stored_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) r j).trans (blockMessage_eq m hr hc bond W1 b1 W2 b2 Wa ba c H t r j)

/-! ## The blocks tile the array -/

/-- An index of the output array is in point `t`'s block iff each coordinate is in the block's range on its axis. -/
theorem mem_blk (t : Fin cfg0.N) (i : S800000x128.Idx) :
    i ∈ ((cfg0.win 11).blk t).view.set ↔ ∀ a : Fin 2, win0_11.index t a * S3200x128.size a ≤ (i a).val ∧ (i a).val < win0_11.index t a * S3200x128.size a + S3200x128.size a := by
  show i ∈ ((View.whole main_v31).slice (win0_11.rect t)).set ↔ _
  rw [View.set_slice_whole, Rect.mem_set_unit]
  exact Iff.rfl

/-- Edge `e` lies in the block of point `e / 3200`, which writes back. -/
theorem cover (i : S800000x128.Idx) :
    ∃ t : Fin cfg0.N, (cfg0.win 11).flush t = true ∧ i ∈ ((cfg0.win 11).blk t).view.set := by
  have hi0 : (i 0).val < 800000 := (i 0).isLt
  have hi1 : (i 1).val < 128 := (i 1).isLt
  let t : Fin cfg0.N := ⟨(i 0).val / 3200, by show (i 0).val / 3200 < grid0.N; rw [N_0]; omega⟩
  have htv : t.val = (i 0).val / 3200 := rfl
  refine ⟨t, flush0_11 t, ?_⟩
  rw [mem_blk]
  obtain ⟨f0a, f0b, f1a, f1b, f2a, f2b, f11a, f11b, f3a, f3b, f4a, f4b, f5a, f5b, f6a, f6b, f7a, f7b, f8a, f8b, f9a, f9b, f10a, f10b⟩ := idx_facts t
  intro a
  match a with
  | ⟨0, _⟩ => show win0_11.index t (0 : Fin 2) * 3200 ≤ (i 0).val ∧ (i 0).val < win0_11.index t (0 : Fin 2) * 3200 + 3200; omega
  | ⟨1, _⟩ => show win0_11.index t (1 : Fin 2) * 128 ≤ (i 1).val ∧ (i 1).val < win0_11.index t (1 : Fin 2) * 128 + 128; omega

/-- THE MESSAGE ARRAY after the region: the message function of the region-entry arrays, at every index. -/
theorem messages_final (c : Dev nD) (H : Reads m hr hc bond W1 b1 W2 b2 Wa ba c) :
    (dats m 0 c).arrAt 11 cfg0.N = message hr hc bond W1 b1 W2 b2 Wa ba :=
  (dats m 0 c).arrAt_eq_of_cover 11 (message hr hc bond W1 b1 W2 b2 Wa ba)
    (fun t _ => flushed_eq m hr hc bond W1 b1 W2 b2 Wa ba c H t) (cover)

end

end Cert.KernelIdeal.Blocks

end
-- ==== Proof.KernelHost.lean ====
/-
  The host side of the idealized kernel program, over the extended reals.

  The program's @main is 35 host lines, one kernel call over a grid, and 5 more host lines. The nine arguments are
  0: the node features `h` (50000 × 128), 1: the edge index (2 × 800000 node ids), 2: the bond embedding
  (800000 × 64), 3: the first layer's weight (320 × 128), 4: its bias (128), 5: the second layer's weight
  (128 × 128), 6: its bias (128), 7: the gate's weight (64 × 1), 8: the gate's bias (1).

  Before the call, the host lines build the call's eleven operands from the arguments:
    * the features rounded to bf16 and gathered row-wise at the two rows of the edge index — a node id `r` first
      wrapped as `if r < 0 then r + 50000 else r`, then laid out as a column of start indices;
    * the bond embedding, the second layer's weight and the gate's weight, each rounded to bf16;
    * the first layer's weight cut in three row bands (rows 0–127, 128–255, 256–319), each rounded to bf16;
    * the three biases reshaped to arrays of rank two.
  Each `entry_v…` lemma states what one operand's buffer holds when the call begins, as that composition of the
  host lines' functions applied to the arguments.

  After the call, the host lines scatter-add the call's output rows (one per edge) into a zero 50000 × 128 array
  at the ids of edge-index row 0 (as read, not wrapped), and add the node features: `tail_result`.
-/
import proofs.«167777_j35914516529888_1_alg».proof.Proof.Gen.KernelIdeal.Frame
import Idealize.ShloMosaic.Lib.StableHlo.Run
import Idealize.ShloMosaic.PureOps.Ideal

noncomputable section

namespace Cert.KernelIdeal.HostSide

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-! ## The edge endpoints as the host lines compute them -/

/-- Row 0 of the `2 × 800000` edge index as a vector of 800000 node ids: the slice `[0:1, 0:800000]` followed by
    the reshape to rank one. -/
def edgeRow0 (ei : IVec S2x800000 32) : IVec S800000 32 :=
  shapeCast S800000 (extractStridedSlice S1x800000 ![0, 0] ei slices_S2x800000_S1x800000_0_0) shapeCasts_S1x800000_S800000

/-- Row 1 of the edge index, flattened the same way: the slice `[1:2, 0:800000]` and the reshape. -/
def edgeRow1 (ei : IVec S2x800000 32) : IVec S800000 32 :=
  shapeCast S800000 (extractStridedSlice S1x800000 ![1, 0] ei slices_S2x800000_S1x800000_1_0) shapeCasts_S1x800000_S800000

/-- The start indices of a row gather: a negative node id `r` is wrapped to `r + 50000` (the select on `r < 0`
    between `r + 50000` and `r`, the constants `0` and `50000` splat over the 800000 edges), and the vector is laid
    out as a column `800000 × 1`. -/
def wrapIdx (r : IVec S800000 32) : IVec S800000x1 32 :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)

/-! ## What each operand of the kernel call holds when the call begins -/

/-- Operand 0: the rows of the node features (argument 0), rounded to bf16, gathered at the wrapped ids of
    edge-index row 0. -/
theorem entry_v11 (c : Dev nD) : (V m c main_v11 : S800000x128.Idx → EReal)
    = Host.gather gather_S50000x128_S800000x1_S800000x128_1_0_n_n_0_1_1128
        (truncf (F := Ideal) .bf16 (m ((c : Thread nD τ).loc main_arg0)) bitsLt_bf16_f32)
        (wrapIdx (edgeRow0 (m ((c : Thread nD τ).loc main_arg1)))) := by
  show StableHlo.after hostOps0 (fun b => m (c, b)) (Proc.devRef .tc main_v11) = _
  after_results_simp <;> rfl

/-- Operand 1: the same gather at the wrapped ids of edge-index row 1. -/
theorem entry_v18 (c : Dev nD) : (V m c main_v18 : S800000x128.Idx → EReal)
    = Host.gather gather_S50000x128_S800000x1_S800000x128_1_0_n_n_0_1_1128
        (truncf (F := Ideal) .bf16 (m ((c : Thread nD τ).loc main_arg0)) bitsLt_bf16_f32)
        (wrapIdx (edgeRow1 (m ((c : Thread nD τ).loc main_arg1)))) := by
  show StableHlo.after hostOps0 (fun b => m (c, b)) (Proc.devRef .tc main_v18) = _
  after_results_simp <;> rfl

/-- Operand 2: the bond embedding (argument 2) rounded to bf16. -/
theorem entry_v19 (c : Dev nD) : (V m c main_v19 : S800000x64.Idx → EReal)
    = truncf (F := Ideal) .bf16 (m ((c : Thread nD τ).loc main_arg2)) bitsLt_bf16_f32 := by
  show StableHlo.after hostOps0 (fun b => m (c, b)) (Proc.devRef .tc main_v19) = _
  after_results_simp <;> rfl

/-- Operand 3: rows 0–127 of the first layer's weight (argument 3), rounded to bf16. -/
theorem entry_v21 (c : Dev nD) : (V m c main_v21 : S128x128.Idx → EReal)
    = truncf (F := Ideal) .bf16
        (extractStridedSlice S128x128 ![0, 0] (m ((c : Thread nD τ).loc main_arg3)) slices_S320x128_S128x128_0_0) bitsLt_bf16_f32 := by
  show StableHlo.after hostOps0 (fun b => m (c, b)) (Proc.devRef .tc main_v21) = _
  after_results_simp <;> rfl

/-- Operand 4: rows 128–255 of the first layer's weight, rounded to bf16. -/
theorem entry_v23 (c : Dev nD) : (V m c main_v23 : S128x128.Idx → EReal)
    = truncf (F := Ideal) .bf16
        (extractStridedSlice S128x128 ![128, 0] (m ((c : Thread nD τ).loc main_arg3)) slices_S320x128_S128x128_128_0) bitsLt_bf16_f32 := by
  show StableHlo.after hostOps0 (fun b => m (c, b)) (Proc.devRef .tc main_v23) = _
  after_results_simp <;> rfl

/-- Operand 5: rows 256–319 of the first layer's weight, rounded to bf16. -/
theorem entry_v25 (c : Dev nD) : (V m c main_v25 : S64x128.Idx → EReal)
    = truncf (F := Ideal) .bf16
        (extractStridedSlice S64x128 ![256, 0] (m ((c : Thread nD τ).loc main_arg3)) slices_S320x128_S64x128_256_0) bitsLt_bf16_f32 := by
  show StableHlo.after hostOps0 (fun b => m (c, b)) (Proc.devRef .tc main_v25) = _
  after_results_simp <;> rfl

/-- Operand 6: the first layer's bias (argument 4) as a `1 × 128` row. -/
theorem entry_v28 (c : Dev nD) : (V m c main_v28 : S1x128.Idx → EReal)
    = shapeCast S1x128 (m ((c : Thread nD τ).loc main_arg4)) shapeCasts_S128_S1x128 := by
  show StableHlo.after hostOps0 (fun b => m (c, b)) (Proc.devRef .tc main_v28) = _
  after_results_simp <;> rfl

/-- Operand 7: the second layer's weight (argument 5) rounded to bf16. -/
theorem entry_v26 (c : Dev nD) : (V m c main_v26 : S128x128.Idx → EReal)
    = truncf (F := Ideal) .bf16 (m ((c : Thread nD τ).loc main_arg5)) bitsLt_bf16_f32 := by
  show StableHlo.after hostOps0 (fun b => m (c, b)) (Proc.devRef .tc main_v26) = _
  after_results_simp <;> rfl

/-- Operand 8: the second layer's bias (argument 6) as a `1 × 128` row. -/
theorem entry_v29 (c : Dev nD) : (V m c main_v29 : S1x128.Idx → EReal)
    = shapeCast S1x128 (m ((c : Thread nD τ).loc main_arg6)) shapeCasts_S128_S1x128 := by
  show StableHlo.after hostOps0 (fun b => m (c, b)) (Proc.devRef .tc main_v29) = _
  after_results_simp <;> rfl

/-- Operand 9: the gate's weight (argument 7) rounded to bf16. -/
theorem entry_v27 (c : Dev nD) : (V m c main_v27 : S64x1.Idx → EReal)
    = truncf (F := Ideal) .bf16 (m ((c : Thread nD τ).loc main_arg7)) bitsLt_bf16_f32 := by
  show StableHlo.after hostOps0 (fun b => m (c, b)) (Proc.devRef .tc main_v27) = _
  after_results_simp <;> rfl

/-- Operand 10: the gate's bias (argument 8) as a `1 × 1` array. -/
theorem entry_v30 (c : Dev nD) : (V m c main_v30 : S1x1.Idx → EReal)
    = shapeCast S1x1 (m ((c : Thread nD τ).loc main_arg8)) shapeCasts_S1_S1x1 := by
  show StableHlo.after hostOps0 (fun b => m (c, b)) (Proc.devRef .tc main_v30) = _
  after_results_simp <;> rfl

/-- The flattened row 0 of the edge index is no operand of the call, but the lines after the call read it again. -/
theorem entry_v1 (c : Dev nD) : (V m c main_v1 : S800000.Idx → BitVec 32)
    = edgeRow0 (m ((c : Thread nD τ).loc main_arg1)) := by
  show StableHlo.after hostOps0 (fun b => m (c, b)) (Proc.devRef .tc main_v1) = _
  after_results_simp <;> rfl

/-! ## The result of the lines after the call -/

/-- The program's result. The lines after the call read three buffers of what the call leaves: the call's output
    array (window 11 of the pipeline, at its contents after the last grid point), and two buffers the call does not
    touch — the node features, still as launched, and the flattened row 0 of the edge index, still as the lines
    before the call left it. The result is the features plus the scatter-add of the output rows into a zero array
    at the ids of edge-index row 0 (unwrapped), laid out as a column: node `n` receives the sum of the rows of the
    edges whose row-0 endpoint is `n`. -/
theorem tail_result (c : Dev nD) :
    (Pipeline.afterTail₀ cfgs (dats m) 0 (V0 m) [hostOps1] c main_v35 : S50000x128.Idx → EReal)
      = addf (F := Ideal) (m ((c : Thread nD τ).loc main_arg0))
          (Host.scatterAdd (F := Ideal) scatter_S50000x128_S800000x1_S800000x128_1_0_0_1
            (broadcastInDim S50000x128 ![] bcast_S_S50000x128 (constant (F := Ideal) S_ .f32 0x00000000#32))
            (broadcastInDim S800000x1 ![0] bcast_S800000_S800000x1_0 (edgeRow0 (m ((c : Thread nD τ).loc main_arg1))))
            ((dats m 0 c).arrAt 11 cfg0.N)) := by
  -- the output array is window 11's
  have h31 : Pipeline.withArrays spec0 c (V0 m c) (fun w => (dats m 0 c).arrAt w cfg0.N) (Proc.devRef .tc main_v31)
      = (dats m 0 c).arrAt 11 cfg0.N :=
    Pipeline.withArrays_arr spec0 launch0.win.arr_inj c _ _ 11
  -- the node features are no window's array, and no line before the call writes them
  have h0 : Pipeline.withArrays spec0 c (V0 m c) (fun w => (dats m 0 c).arrAt w cfg0.N) (Proc.devRef .tc main_arg0)
      = m ((c : Thread nD τ).loc main_arg0) :=
    (Pipeline.withArrays_of_ne _ c (V0 m c) _ main_arg0
      (by exact (by decide : ∀ w, Pipeline.arrRef spec0 w ≠ main_arg0))).trans (V_main_arg0 m c)
  -- the flattened row 0 is no window's array either
  have h1 : Pipeline.withArrays spec0 c (V0 m c) (fun w => (dats m 0 c).arrAt w cfg0.N) (Proc.devRef .tc main_v1)
      = edgeRow0 (m ((c : Thread nD τ).loc main_arg1)) :=
    (Pipeline.withArrays_of_ne _ c (V0 m c) _ main_v1
      (by exact (by decide : ∀ w, Pipeline.arrRef spec0 w ≠ main_v1))).trans (entry_v1 m c)
  unfold Pipeline.afterTail₀
  show StableHlo.after hostOps1 _ (Proc.devRef .tc main_v35) = _
  after_results
  rw [h31, h0, h1]

end Cert.KernelIdeal.HostSide

end
-- ==== Proof.KernelValue.lean ====
/-
  The idealized kernel program's run with its result NAMED.

  The result is `h + scatterAdd(0, row, messages)`: the host lines after the kernel region splat a zero array of the
  node features' shape, scatter-add the [800000,128] message array into it at the edges' row-0 node ids, and add `h`.
  The message array is what the region's 250 grid points wrote back (the message function of the region-entry
  arrays), and the region-entry arrays are what the host lines BEFORE the region computed from the arguments: the rows of
  `h` gathered at the edges' two endpoints, the bond embedding, the three row bands of the first layer's weight cut
  out by slices, and the biases reshaped to one row. A change of float format is the identity on the extended reals,
  so the bf16 copies read as the arguments themselves.
-/
import proofs.«167777_j35914516529888_1_alg».proof.Proof.KernelBlocks
import proofs.«167777_j35914516529888_1_alg».proof.Proof.KernelHost
import Idealize.ShloMosaic.Lib.ValueLayout

noncomputable section

namespace Cert.KernelIdeal.RunValue

open Cert.KernelIdeal Cert.KernelIdeal.Gen Cert.KernelIdeal.Blocks Cert.KernelIdeal.HostSide Cert.EdgeMessage
open Idealize.ShloMosaic Idealize.ShloMosaic.TcCoe Idealize.ShloMosaic.ValueIdx Idealize.SL.Sem

variable (m : (ℓ : Loc nD τ sig) → Buf (Elt Ideal) ℓ) (ρ : Dev nD → PrngReg)

/-- The node features gathered at the wrapped node ids `r`, one row per edge. -/
def gatherRows (h : S50000x128.Idx → EReal) (r : IVec S800000 32) : S800000x128.Idx → EReal :=
  Host.gather gather_S50000x128_S800000x1_S800000x128_1_0_n_n_0_1_1128 h (wrapIdx r)

/-- The messages of all edges, from the arguments. -/
def messages (c : Dev nD) : S800000x128.Idx → EReal :=
  message (gatherRows (m ((c : Thread nD τ).loc main_arg0)) (edgeRow0 (m ((c : Thread nD τ).loc main_arg1))))
    (gatherRows (m ((c : Thread nD τ).loc main_arg0)) (edgeRow1 (m ((c : Thread nD τ).loc main_arg1))))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-- The updated node features: `h` plus the messages scatter-added at the edges' row-0 node ids. -/
def result (c : Dev nD) : S50000x128.Idx → EReal :=
  addf (m ((c : Thread nD τ).loc main_arg0))
    (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0
        (shapeCast _ (extractStridedSlice S1x800000 ![0, 0] (m ((c : Thread nD τ).loc main_arg1)) slices_S2x800000_S1x800000_0_0) shapeCasts_S1x800000_S800000))
      (messages m c))

/-- The region-entry arrays, entry by entry, are the message function's arguments. -/
theorem reads (c : Dev nD) :
    Reads m (gatherRows (m ((c : Thread nD τ).loc main_arg0)) (edgeRow0 (m ((c : Thread nD τ).loc main_arg1))))
      (gatherRows (m ((c : Thread nD τ).loc main_arg0)) (edgeRow1 (m ((c : Thread nD τ).loc main_arg1))))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) c where
  src e a := (congrFun (entry_v11 m c) (ix2 e a)).trans rfl
  dst e a := (congrFun (entry_v18 m c) (ix2 e a)).trans rfl
  bnd e a := (congrFun (entry_v19 m c) (ix2 e a)).trans rfl
  w1a a k := (congrFun (entry_v21 m c) (ix2 a k)).trans
    (slice2_axis0_apply 0 (m ((c : Thread nD τ).loc main_arg3)) slices_S320x128_S128x128_0_0 a k (bandRow 0 128 (by decide) a) rfl)
  w1b a k := (congrFun (entry_v23 m c) (ix2 a k)).trans
    (slice2_axis0_apply 128 (m ((c : Thread nD τ).loc main_arg3)) slices_S320x128_S128x128_128_0 a k (bandRow 128 128 (by decide) a) rfl)
  w1c a k := (congrFun (entry_v25 m c) (ix2 a k)).trans
    (slice2_axis0_apply 256 (m ((c : Thread nD τ).loc main_arg3)) slices_S320x128_S64x128_256_0 a k (bandRow 256 64 (by decide) a) rfl)
  bias1 k := (congrFun (entry_v28 m c) (ix2 (0 : Fin 1) k)).trans
    (shapeCast_a_1a_apply (m ((c : Thread nD τ).loc main_arg4)) shapeCasts_S128_S1x128 (0 : Fin 1) k)
  w2 k j := (congrFun (entry_v26 m c) (ix2 k j)).trans rfl
  bias2 j := (congrFun (entry_v29 m c) (ix2 (0 : Fin 1) j)).trans
    (shapeCast_a_1a_apply (m ((c : Thread nD τ).loc main_arg6)) shapeCasts_S128_S1x128 (0 : Fin 1) j)
  wa k := (congrFun (entry_v27 m c) (ix2 k (0 : Fin 1))).trans rfl
  biasa := (congrFun (entry_v30 m c) (ix2 (0 : Fin 1) (0 : Fin 1))).trans
    (shapeCast_a_1a_apply (m ((c : Thread nD τ).loc main_arg8)) shapeCasts_S1_S1x1 (0 : Fin 1) (0 : Fin 1))

/-- The result buffer after the run. -/
theorem result_eq (c : Dev nD) :
    (Pipeline.afterTail₀ cfgs (dats m) 0 (V0 m) [hostOps1] c main_v35 : S50000x128.Idx → EReal) = result m c := by
  rw [tail_result, messages_final m _ _ _ _ _ _ _ _ _ c (reads m c)]
  rfl

/-- Every weakly fair execution of the idealized kernel program terminates with the result buffer at `result` and
    the arguments unchanged. -/
theorem run : θ_run defs (onTc (τ := τ) (main (F := Ideal))) ⟨m, fun _ => 0, ρ⟩ fun r => ∀ c : Dev nD,
      r.2.mem ((c.tc : Thread nD τ).loc main_v35) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v35 (Pipeline.mem_restRefs_of main_v35 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.RunValue

end
-- ==== Proof.RefMessages.lean ====
/-
  The reference's array of per-edge messages is the message function of the whole arrays.

  The reference computes, for edge e and feature j,
      ( Σ_k max( Σ_a cat[e,a]·W1[a,k] + b1[k], 0 )·W2[k,j] + b2[j] ) · ( 1 / (1 + exp(-( Σ_k bond[e,k]·Wa[k,0] + ba[0] ))) )
  where cat = [hr | hc | bond] is the 320-column concatenation of the node features gathered at the edge's two
  endpoints (two arrays that are kept as they are: nothing is said about which node a row comes from) and the bond
  embedding.

  Two things turn this into the message function.
  * The sum over the 320 columns of cat is the sum of three band sums (rows 0–127, 128–255, 256–319 of W1), and in
    each band the concatenation at column off + a is its own piece (hr, hc, bond) at column a.
  * The quotient 1 / (1 + exp(-s)) is the logistic function of s by definition, the literal 1 being the bit
    pattern of the float one.
  Every bias is a broadcast along the edges, so at (e, k) it is the bias vector at k; the gate is a broadcast along
  the features, so at (e, j) it is the gate of e. The rectifier's zero is left as the bit pattern it is.
-/
import proofs.«167777_j35914516529888_1_alg».proof.Proof.Gen.ReferenceIdeal.Read
import proofs.«167777_j35914516529888_1_alg».proof.Proof.MessageSpec
import Idealize.ShloMosaic.Lib.IdealHost
import Idealize.ShloMosaic.Lib.Pipeline.Value
import Idealize.ShloMosaic.Lib.ValueIdx
import Idealize.ShloMosaic.PureOps.Ideal

noncomputable section

namespace Cert.ReferenceIdeal.Messages
open Cert.ReferenceIdeal Cert.ReferenceIdeal.Gen Cert.ReferenceIdeal.Read Idealize.ShloMosaic Idealize.ShloMosaic.ValueIdx
open Cert.EdgeMessage (bandRow preact gate message sum_bands)

variable (x0 : (⟨S50000x128, .f32⟩ : BufTy).Contents (Elt Ideal)) (x1 : (⟨S2x800000, .i32⟩ : BufTy).Contents (Elt Ideal))
  (x2 : (⟨S800000x64, .f32⟩ : BufTy).Contents (Elt Ideal)) (x3 : (⟨S320x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S64x1, .f32⟩ : BufTy).Contents (Elt Ideal))
  (x8 : (⟨S1, .f32⟩ : BufTy).Contents (Elt Ideal))

/-! ## The concatenation, band by band -/

/-- Columns 0–127 of the concatenation are the source features. -/
theorem cat_src (e : Fin 800000) (a : Fin 128) :
    val_main_v28 (F := Ideal) x0 x1 x2 (ix2 e (bandRow 0 128 (by decide) a)) = val_main_v20 (F := Ideal) x0 x1 (ix2 e a) := by
  unfold val_main_v28
  generalize val_main_v20 (F := Ideal) x0 x1 = hr
  generalize val_main_v27 (F := Ideal) x0 x1 = hc
  exact concatenate_apply_piece (t := S800000x320) 1 _ _ _ 0 (by show (0 : Nat) < 3; decide) S800000x128 hr rfl rfl 0 rfl (ix2 e a)
    (fun b hb => match b, hb with
      | ⟨0, _⟩, _ => rfl
      | ⟨1, _⟩, hb => (hb (Fin.ext rfl)).elim) rfl

/-- Columns 128–255 of the concatenation are the target features. -/
theorem cat_dst (e : Fin 800000) (a : Fin 128) :
    val_main_v28 (F := Ideal) x0 x1 x2 (ix2 e (bandRow 128 128 (by decide) a)) = val_main_v27 (F := Ideal) x0 x1 (ix2 e a) := by
  unfold val_main_v28
  generalize val_main_v20 (F := Ideal) x0 x1 = hr
  generalize val_main_v27 (F := Ideal) x0 x1 = hc
  exact concatenate_apply_piece (t := S800000x320) 1 _ _ _ 1 (by show (1 : Nat) < 3; decide) S800000x128 hc rfl rfl 128 rfl (ix2 e a)
    (fun b hb => match b, hb with
      | ⟨0, _⟩, _ => rfl
      | ⟨1, _⟩, hb => (hb (Fin.ext rfl)).elim) rfl

/-- Columns 256–319 of the concatenation are the bond embedding. -/
theorem cat_bond (e : Fin 800000) (a : Fin 64) :
    val_main_v28 (F := Ideal) x0 x1 x2 (ix2 e (bandRow 256 64 (by decide) a)) = x2 (ix2 e a) := by
  unfold val_main_v28
  generalize val_main_v20 (F := Ideal) x0 x1 = hr
  generalize val_main_v27 (F := Ideal) x0 x1 = hc
  exact concatenate_apply_piece (t := S800000x320) 1 _ _ _ 2 (by show (2 : Nat) < 3; decide) S800000x64 x2 rfl rfl 256 rfl (ix2 e a)
    (fun b hb => match b, hb with
      | ⟨0, _⟩, _ => rfl
      | ⟨1, _⟩, hb => (hb (Fin.ext rfl)).elim) rfl

/-! ## The biases and the gate's broadcast -/

/-- The first layer's bias, broadcast along the edges, at (e, k) is the bias at k. -/
theorem bias1_at (e : Fin 800000) (k : Fin 128) : val_main_v31 (F := Ideal) x4 (ix2 e k) = x4 (ix1 k) := by
  rw [val_main_v31_apply, val_main_v30_apply]
  exact congrArg x4 (funext fun a => Fin.ext (by match a with | ⟨0, _⟩ => rfl))

/-- The second layer's bias, broadcast along the edges, at (e, j) is the bias at j. -/
theorem bias2_at (e : Fin 800000) (j : Fin 128) : val_main_v36 (F := Ideal) x6 (ix2 e j) = x6 (ix1 j) := by
  rw [val_main_v36_apply, val_main_v35_apply]
  exact congrArg x6 (funext fun a => Fin.ext (by match a with | ⟨0, _⟩ => rfl))

/-! ## The gate -/

/-- The reference's quotient 1 / (1 + exp(-s)) at edge e is the gate of e. -/
theorem gate_at (e : Fin 800000) :
    val_main_v13 (F := Ideal) x2 x7 x8 (ix2 e (0 : Fin 1)) = gate x2 x7 x8 e := by
  have hl : ∀ k : Fin 64, lidx_main_v4 (ix2 e (0 : Fin 1)) k = ix2 e k := fun k =>
    funext fun a => Fin.ext (by match a with | ⟨0, _⟩ => rfl | ⟨1, _⟩ => rfl)
  have hr : ∀ k : Fin 64, ridx_main_v4 (ix2 e (0 : Fin 1)) k = ix2 k (0 : Fin 1) := fun k =>
    funext fun a => Fin.ext (by match a with | ⟨0, _⟩ => rfl | ⟨1, _⟩ => rfl)
  have hb : idx_main_v5 (idx_main_v6 (ix2 e (0 : Fin 1))) = ix1 (0 : Fin 1) :=
    funext fun a => Fin.ext (by match a with | ⟨0, _⟩ => rfl)
  rw [val_main_v13_apply, val_main_v12_apply, val_main_cst_0_apply, val_main_v11_apply, val_main_v10_apply,
    val_main_cst_apply, val_main_v9_apply, val_main_v8_apply, val_main_v7_apply, val_main_v4_apply,
    val_main_v6_apply, val_main_v5_apply, hb]
  simp only [hl, hr]
  rw [Ideal.hostDivf_def, Ideal.addf_def, Ideal.hostUnary_exp_def, Ideal.hostNegf_def, Ideal.negf_def,
    Ideal.addf_def, Ideal.ofBits_def, Ideal.ofBits_one_f32]
  rfl

/-- The gate, broadcast along the features, at (e, j) is the gate of e. -/
theorem gate_bcast (e : Fin 800000) (j : Fin 128) :
    val_main_v38 (F := Ideal) x2 x7 x8 (ix2 e j) = gate x2 x7 x8 e := by
  have hi : idx_main_v38 (ix2 e j) = ix2 e (0 : Fin 1) :=
    funext fun a => Fin.ext (by match a with | ⟨0, _⟩ => rfl | ⟨1, _⟩ => rfl)
  rw [val_main_v38_apply, hi, gate_at]

/-! ## The two layers -/

/-- The first layer before its activation: the product with the concatenated row is the three band products. -/
theorem preact_at (e : Fin 800000) (k : Fin 128) :
    val_main_v32 (F := Ideal) x0 x1 x2 x3 x4 (ix2 e k)
      = preact (val_main_v20 (F := Ideal) x0 x1) (val_main_v27 (F := Ideal) x0 x1) x2 x3 x4 e k := by
  have hl : ∀ a : Fin 320, lidx_main_v29 (ix2 e k) a = ix2 e a := fun a =>
    funext fun d => Fin.ext (by match d with | ⟨0, _⟩ => rfl | ⟨1, _⟩ => rfl)
  have hr : ∀ a : Fin 320, ridx_main_v29 (ix2 e k) a = ix2 a k := fun a =>
    funext fun d => Fin.ext (by match d with | ⟨0, _⟩ => rfl | ⟨1, _⟩ => rfl)
  rw [val_main_v32_apply, val_main_v29_apply, bias1_at, Ideal.addf_def]
  simp only [hl, hr]
  rw [sum_bands]
  simp only [cat_src, cat_dst, cat_bond]
  unfold preact
  rfl

/-- The second layer of the rectified first layer, with its bias. -/
theorem lin_at (e : Fin 800000) (j : Fin 128) :
    val_main_v37 (F := Ideal) x0 x1 x2 x3 x4 x5 x6 (ix2 e j)
      = (∑ k : Fin 128, max (preact (val_main_v20 (F := Ideal) x0 x1) (val_main_v27 (F := Ideal) x0 x1) x2 x3 x4 e k)
            (Ideal.ofBits .f32 0x00000000#32) * x5 (ix2 k j))
        + x6 (ix1 j) := by
  have hl : ∀ k : Fin 128, lidx_main_v34 (ix2 e j) k = ix2 e k := fun k =>
    funext fun d => Fin.ext (by match d with | ⟨0, _⟩ => rfl | ⟨1, _⟩ => rfl)
  have hr : ∀ k : Fin 128, ridx_main_v34 (ix2 e j) k = ix2 k j := fun k =>
    funext fun d => Fin.ext (by match d with | ⟨0, _⟩ => rfl | ⟨1, _⟩ => rfl)
  rw [val_main_v37_apply, val_main_v34_apply, bias2_at, Ideal.addf_def]
  simp only [hl, hr, val_main_v33_apply, preact_at, val_main_call0_v0_apply, val_main_call0_cst_apply,
    Ideal.maximumf_def, Ideal.ofBits_def]

/-! ## The messages -/

theorem messages_eq (x0 : (⟨S50000x128, .f32⟩ : BufTy).Contents (Elt Ideal)) (x1 : (⟨S2x800000, .i32⟩ : BufTy).Contents (Elt Ideal))
    (x2 : (⟨S800000x64, .f32⟩ : BufTy).Contents (Elt Ideal)) (x3 : (⟨S320x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S64x1, .f32⟩ : BufTy).Contents (Elt Ideal))
    (x8 : (⟨S1, .f32⟩ : BufTy).Contents (Elt Ideal)) :
    val_main_v39 (F := Ideal) x0 x1 x2 x3 x4 x5 x6 x7 x8
      = Cert.EdgeMessage.message (val_main_v20 (F := Ideal) x0 x1) (val_main_v27 (F := Ideal) x0 x1) x2 x3 x4 x5 x6 x7 x8 := by
  funext i
  obtain ⟨e, j, rfl⟩ : ∃ (e : Fin 800000) (j : Fin 128), i = ix2 e j := ⟨i 0, i 1, eq_ix2 i⟩
  rw [val_main_v39_apply, lin_at, gate_bcast, Ideal.mulf_def]
  rfl

end Cert.ReferenceIdeal.Messages

end
-- ==== Proof.Bridge.lean ====
/-
  The two idealized programs compute one function of the arguments.

  Both end with `h + scatterAdd(0, row, messages)` over the same scatter and the same row ids, and both gather the node
  features with the same gather at the same wrapped ids; the reference's message array is the message function of
  the gathered rows and the arguments (the concatenated product split into its three bands), and so is the kernel's.
  So the reference's result term, read at the kernel program's arguments, is the kernel's result.
-/
import proofs.«167777_j35914516529888_1_alg».proof.Proof.KernelValue
import proofs.«167777_j35914516529888_1_alg».proof.Proof.RefMessages

noncomputable section

namespace Cert.Proof.Bridge

open Idealize.ShloMosaic Idealize.ShloMosaic.TcCoe Idealize.SL.Sem

/-- The reference's result, at the kernel program's arguments, is the kernel's result. -/
theorem reference_result_eq
    (m : (ℓ : Loc Cert.KernelIdeal.nD Cert.KernelIdeal.τ Cert.KernelIdeal.sig) → Buf (Elt Ideal) ℓ) (c : Dev Cert.KernelIdeal.nD) :
    Cert.ReferenceIdeal.Read.val_main_v43 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
      = Cert.KernelIdeal.RunValue.result m c := by
  unfold Cert.ReferenceIdeal.Read.val_main_v43 Cert.ReferenceIdeal.Read.val_main_v42
  rw [Cert.ReferenceIdeal.Messages.messages_eq]
  rfl

end Cert.Proof.Bridge

end
-- ==== Proof.lean ====
/-
  The certificate of the graph convolution's edge kernel against its jnp reference, over the extended reals.

  Frames: the kernel program's and its idealization's are the generated frame runs; the reference has no kernel, and its
  frame is its run with the result dropped. The idealization changes nothing (no rewrite applied), so `preserves` holds
  trivially. The value claim: both idealized programs end with `h + scatterAdd(0, row, messages)`, and their message
  arrays are one function of the arguments (Proof/Bridge.lean): the kernel's blocks tile the 800000 edges, its three
  separate products with the weight's row bands sum to the reference's one product with the concatenated row, and its
  logistic gate is the reference's `1 / (1 + e⁻ˣ)`.
-/
import proofs.«167777_j35914516529888_1_alg».proof.Defs
import proofs.«167777_j35914516529888_1_alg».proof.Proof.Gen.Kernel
import proofs.«167777_j35914516529888_1_alg».proof.Proof.Gen.Kernel.Skeleton
import proofs.«167777_j35914516529888_1_alg».proof.Proof.Gen.Kernel.Launch
import proofs.«167777_j35914516529888_1_alg».proof.Proof.Gen.Kernel.Points
import proofs.«167777_j35914516529888_1_alg».proof.Proof.Gen.Kernel.Frame
import proofs.«167777_j35914516529888_1_alg».proof.Proof.Gen.KernelIdeal
import proofs.«167777_j35914516529888_1_alg».proof.Proof.Gen.KernelIdeal.Skeleton
import proofs.«167777_j35914516529888_1_alg».proof.Proof.Gen.KernelIdeal.Launch
import proofs.«167777_j35914516529888_1_alg».proof.Proof.Gen.KernelIdeal.Points
import proofs.«167777_j35914516529888_1_alg».proof.Proof.Gen.KernelIdeal.Frame
import proofs.«167777_j35914516529888_1_alg».proof.Proof.Gen.ReferenceIdeal
import proofs.«167777_j35914516529888_1_alg».proof.Proof.Gen.ReferenceIdeal.Run
import proofs.«167777_j35914516529888_1_alg».proof.Proof.Gen.ReferenceIdeal.Read
import proofs.«167777_j35914516529888_1_alg».proof.Proof.Gen.Pre_finite_inputs
import proofs.«167777_j35914516529888_1_alg».proof.Proof.Bridge
import Idealize.ShloMosaic.Adequacy
import Idealize.ShloMosaic.Init

noncomputable section

namespace Cert.Proof

open Idealize.ShloMosaic Idealize.SL.Sem

namespace Claims

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both idealized programs end, the kernel's result buffer and the
    reference's at the same updated node features. -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [e0, e1, e2, e3, e4, e5, e6, e7, e8]
  exact (Cert.ReferenceIdeal.Read.val_main_v43_eq _ _ _ _ _ _ _ _ _).trans (Bridge.reference_result_eq m c)

end Claims

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_reference, Claims.preserves, Claims.algebraic⟩

end Cert.Proof

end
